-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x7 : Shape := ⟨2, ![8192, 7]⟩
abbrev S_ : Shape := ⟨0, ![]⟩

class Facts : Prop where
  bcast_S_S8192x7 : S_.BroadcastsInDim S8192x7 (![] : Fin 0 → Fin S8192x7.rank)
  reducesTo_S8192x7_S_d0_1 : S8192x7.ReducesTo [0, 1] S_
  h_S_ : 0 < S_.numel

variable [Facts]

def fn {F : FTy → Type} [FloatOps F] (main_arg0 : FVec F S8192x7 .f32) : IVec S_ 1 :=
  let main_v0 : FVec F S8192x7 .f32 := Host.absf main_arg0
  let main_cst : FVec F S_ .f32 := constant S_ .f32 0x7F800000#32
  let main_v1 : FVec F S8192x7 .f32 := broadcastInDim S8192x7 ![] bcast_S_S8192x7 main_cst
  let main_v2 : IVec S8192x7 1 := cmpf .olt main_v0 main_v1
  let main_c : IVec S_ 1 := constantI S_ 1 1#1
  let main_v3 : IVec S_ 1 := (fun x v => Host.reduce IntOp.andi x v reducesTo_S8192x7_S_d0_1 h_S_) main_v2 main_c
  main_v3
-- ==== Kernel.lean ====
abbrev S8192x7 : Shape := ⟨2, ![8192, 7]⟩
abbrev S8192x3 : Shape := ⟨2, ![8192, 3]⟩
abbrev S8192x1 : Shape := ⟨2, ![8192, 1]⟩
abbrev S8192 : Shape := ⟨1, ![8192]⟩
abbrev S1x8192 : Shape := ⟨2, ![1, 8192]⟩
abbrev S8192x8192 : Shape := ⟨2, ![8192, 8192]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 21
  | .vmem => 14
  | .smem => 0
  | _ => 0

abbrev bufTy : (tb : Table) → Fin (tcTables nBuf tb) → BufTy
  | .hbm, ⟨0, _⟩ => ⟨S8192x7, .f32⟩
  | .hbm, ⟨1, _⟩ => ⟨S8192x3, .f32⟩
  | .hbm, ⟨2, _⟩ => ⟨S8192x1, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S8192, .f32⟩
  | .hbm, ⟨10, _⟩ => ⟨S8192x1, .f32⟩
  | .hbm, ⟨11, _⟩ => ⟨S8192x1, .f32⟩
  | .hbm, ⟨12, _⟩ => ⟨S8192, .f32⟩
  | .hbm, ⟨13, _⟩ => ⟨S1x8192, .f32⟩
  | .hbm, ⟨14, _⟩ => ⟨S8192x1, .f32⟩
  | .hbm, ⟨15, _⟩ => ⟨S8192, .f32⟩
  | .hbm, ⟨16, _⟩ => ⟨S1x8192, .f32⟩
  | .hbm, ⟨17, _⟩ => ⟨S8192x1, .f32⟩
  | .hbm, ⟨18, _⟩ => ⟨S8192, .f32⟩
  | .hbm, ⟨19, _⟩ => ⟨S1x8192, .f32⟩
  | .hbm, ⟨20, _⟩ => ⟨S8192x8192, .f32⟩
  | .local _ .vmem, ⟨0, _⟩ => ⟨S1024x1, .f32⟩
  | .local _ .vmem, ⟨1, _⟩ => ⟨S1024x1, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S8192x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S8192x7_S8192x3_0_0 : S8192x7.Slices ![0, 0] S8192x3
  slices_S8192x3_S8192x1_0_0 : S8192x3.Slices ![0, 0] S8192x1
  shapeCasts_S8192x1_S8192 : S8192x1.ShapeCasts S8192
  shapeCasts_S8192_S8192x1 : S8192.ShapeCasts S8192x1
  slices_S8192x3_S8192x1_0_1 : S8192x3.Slices ![0, 1] S8192x1
  slices_S8192x3_S8192x1_0_2 : S8192x3.Slices ![0, 2] S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  inb_S1024x1024_S1024x1024_0_0 : ∀ a, (![0, 0] : Fin 2 → Nat) a + S1024x1024.size a ≤ S1024x1024.size a
  h_S1024x1024 : 0 < S1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x8192.size a
  hwx0_6 : ∀ i : grid0.Coords, EltTy.bits .f32 = 32 ∨ (Rect.block (s := S8192x8192) S1024x1024.size (cc0_transform_6 i) (hinb0_6 i)).WholeWords (EltTy.packing .f32)

variable [Facts₀]

abbrev win0_0 : Pipeline.Window sig grid0 :=
  Pipeline.Window.ofSpec (Memref.whole main_v3) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x7 : Shape := ⟨2, ![8192, 7]⟩
abbrev S8192x3 : Shape := ⟨2, ![8192, 3]⟩
abbrev S8192x1x3 : Shape := ⟨3, ![8192, 1, 3]⟩
abbrev S1x8192x3 : Shape := ⟨3, ![1, 8192, 3]⟩
abbrev S8192x8192x3 : Shape := ⟨3, ![8192, 8192, 3]⟩
abbrev S_ : Shape := ⟨0, ![]⟩
abbrev S8192x8192 : Shape := ⟨2, ![8192, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x7, .f32⟩
  | .hbm, ⟨1, _⟩ => ⟨S8192x3, .f32⟩
  | .hbm, ⟨2, _⟩ => ⟨S8192x1x3, .f32⟩
  | .hbm, ⟨3, _⟩ => ⟨S1x8192x3, .f32⟩
  | .hbm, ⟨4, _⟩ => ⟨S8192x8192x3, .f32⟩
  | .hbm, ⟨5, _⟩ => ⟨S8192x8192x3, .f32⟩
  | .hbm, ⟨6, _⟩ => ⟨S8192x8192x3, .f32⟩
  | .hbm, ⟨7, _⟩ => ⟨S8192x8192x3, .f32⟩
  | .hbm, ⟨8, _⟩ => ⟨S_, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .i1⟩
  | .hbm, ⟨13, _⟩ => ⟨S8192x8192, .f32⟩
  | _, _ => ⟨S8192x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]

class Facts₀ : Prop where
  slices_S8192x7_S8192x3_0_0 : S8192x7.Slices ![0, 0] S8192x3
  bcast_S8192x3_S8192x1x3_0_2 : S8192x3.BroadcastsInDim S8192x1x3 (![0, 2] : Fin 2 → Fin S8192x1x3.rank)
  bcast_S8192x3_S1x8192x3_1_2 : S8192x3.BroadcastsInDim S1x8192x3 (![1, 2] : Fin 2 → Fin S1x8192x3.rank)
  bcast_S8192x1x3_S8192x8192x3_0_1_2 : S8192x1x3.BroadcastsInDim S8192x8192x3 (![0, 1, 2] : Fin 3 → Fin S8192x8192x3.rank)
  bcast_S1x8192x3_S8192x8192x3_0_1_2 : S1x8192x3.BroadcastsInDim S8192x8192x3 (![0, 1, 2] : Fin 3 → Fin S8192x8192x3.rank)
  reducesTo_S8192x8192x3_S8192x8192_d2 : S8192x8192x3.ReducesTo [2] S8192x8192
  h_S_ : 0 < S_.numel
  bcast_S_S8192x8192 : S_.BroadcastsInDim S8192x8192 (![] : Fin 0 → Fin S8192x8192.rank)

variable [Facts₀]

class Facts : Prop extends Facts₀ where

variable [Facts]
-- ==== Proof.BondGraph.lean ====
/-
  The bond graph of a cloud of 8192 points, as ONE function of the point array.

  A point is a row of seven features of which the first three are its position. Two points `r` and `c` are bonded
  when their L1 distance `|x r 0 - x c 0| + |x r 1 - x c 1| + |x r 2 - x c 2|` is at most the cutoff (the f32 word
  `0x40666666`, which both programs carry as the same literal, so its value is never needed). The graph is the
  8192 × 8192 array holding `1` where the pair is bonded and `0` elsewhere. On the extended reals `|a|` is `max a (-a)`.

  Two small facts join the two programs to this function: the comparison's bit widened to 32 bits and read signed is the
  bit read unsigned (both are `0` or `1`), and a sum over three terms started at zero is the three terms added left to
  right (addition of extended reals is associative and `0` is its unit: no finiteness is needed).
-/
import Idealize.ShloMosaic.PureOps.Ideal
import Idealize.ShloMosaic.PureOps.Ideal.Laws
import Idealize.ShloMosaic.Lib.ValueIdx

noncomputable section

open scoped BigOperators

namespace Cert.BondGraph

open Idealize.ShloMosaic Idealize.ShloMosaic.ValueIdx

/-- The point array: 8192 rows of 7 features. -/
abbrev Pts : Shape := ⟨2, ![8192, 7]⟩
/-- The graph: one entry per ordered pair of points. -/
abbrev Adj : Shape := ⟨2, ![8192, 8192]⟩

/-- The distance of points `r` and `c` along feature `k`: the absolute value of the difference. -/
def gap (x : Pts.Idx → EReal) (r c : Fin 8192) (k : Fin 7) : EReal :=
  max (x (ix2 r k) - x (ix2 c k)) (-(x (ix2 r k) - x (ix2 c k)))

/-- The L1 distance of two points over the three position features, added left to right. -/
def dist (x : Pts.Idx → EReal) (r c : Fin 8192) : EReal :=
  gap x r c 0 + gap x r c 1 + gap x r c 2

/-- The bond graph: `1` where the L1 distance is at most the cutoff, `0` elsewhere. -/
def bonded (x : Pts.Idx → EReal) : Adj.Idx → EReal := fun i =>
  (((Ideal.cmp .ole (dist x (i 0) (i 1)) (Ideal.ofBits .f32 0x40666666#32)).toNat : ℝ) : EReal)

/-- A bit widened with zeros to 32 bits and read as a signed integer is the bit read as a natural number. -/
theorem toInt_setWidth_bit (b : BitVec 1) : ((b.setWidth 32).toInt : ℝ) = (b.toNat : ℝ) := by
  rcases BitVec.eq_zero_or_eq_one b with h | h <;> subst h <;> norm_num

/-- Three terms summed from zero are the three added left to right. -/
theorem zero_add_sum_three (f : Fin 3 → EReal) : (0 : EReal) + ∑ k : Fin 3, f k = f 0 + f 1 + f 2 := by
  rw [Fin.sum_univ_three, zero_add]

end Cert.BondGraph

end
-- ==== Proof.KernelColumns.lean ====
/-
  What the kernel's region finds in its six operand arrays.

  Before the region the host cuts the three position features out of the point array and lays each out twice: as a
  column (8192 × 1) and as a row (1 × 8192). Each is a slice of the first three features, a slice of one feature, a
  flattening to 8192 entries and a reshape; read at an index, entry `p` of feature `k`'s column, and entry `p` of its
  row, is the point array at `(p, k)`.
-/
import proofs.«115803_j52493090292366_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Columns

open Cert.KernelIdeal Cert.KernelIdeal.Gen
open Idealize.ShloMosaic Idealize.ShloMosaic.TcCoe Idealize.ShloMosaic.ValueIdx Idealize.SL.Sem Idealize.ShloMosaic.StableHlo

/-- Feature `k` of every point, sliced out and reshaped to a column: entry `(p, 0)` is the point array at `(p, k)`. -/
theorem column_read (x : S8192x7.Idx → EReal) (off : Fin 2 → Nat) (hs : S8192x3.Slices off S8192x1)
    (k : Fin 7) (hk : k.val < 3) (h0 : off 0 = 0) (h1 : off 1 = k.val) (j : S8192x1.Idx) :
    shapeCast S8192x1 (shapeCast S8192 (extractStridedSlice S8192x1 off
      (extractStridedSlice S8192x3 ![0, 0] x slices_S8192x7_S8192x3_0_0) hs) shapeCasts_S8192x1_S8192) shapeCasts_S8192_S8192x1 j
      = x (ix2 (j 0) k) := by
  have hj0 : (j 0).val < 8192 := (j 0).isLt
  have hj1 : (j 1).val < 1 := (j 1).isLt
  refine (shapeCast_apply _ _ j (ix1 (j 0)) ?_).trans ?_
  · rw [Shape.rowMajor_val_one, Shape.rowMajor_val_two]
    show (j 0).val = (j 0).val * 1 + (j 1).val
    omega
  refine (shapeCast_apply _ _ (ix1 (j 0)) (ix2 (j 0) (0 : Fin 1)) ?_).trans ?_
  · rw [Shape.rowMajor_val_two, Shape.rowMajor_val_one]
    show (j 0).val * 1 + 0 = (j 0).val
    omega
  refine (extractStridedSlice_apply off _ hs (ix2 (j 0) (0 : Fin 1)) (ix2 (j 0) (⟨k.val, hk⟩ : Fin 3)) ?_).trans ?_
  · intro a
    match a with
    | ⟨0, _⟩ => show (j 0).val = off 0 + (j 0).val; omega
    | ⟨1, _⟩ => show k.val = off 1 + 0; omega
  refine (extractStridedSlice_apply ![0, 0] x slices_S8192x7_S8192x3_0_0 (ix2 (j 0) (⟨k.val, hk⟩ : Fin 3)) (ix2 (j 0) k) ?_)
  intro a
  match a with
  | ⟨0, _⟩ => show (j 0).val = 0 + (j 0).val; omega
  | ⟨1, _⟩ => show k.val = 0 + k.val; omega

/-- Feature `k` of every point, sliced out and reshaped to a row: entry `(0, p)` is the point array at `(p, k)`. -/
theorem row_read (x : S8192x7.Idx → EReal) (off : Fin 2 → Nat) (hs : S8192x3.Slices off S8192x1)
    (k : Fin 7) (hk : k.val < 3) (h0 : off 0 = 0) (h1 : off 1 = k.val) (j : S1x8192.Idx) :
    shapeCast S1x8192 (shapeCast S8192 (extractStridedSlice S8192x1 off
      (extractStridedSlice S8192x3 ![0, 0] x slices_S8192x7_S8192x3_0_0) hs) shapeCasts_S8192x1_S8192) shapeCasts_S8192_S1x8192 j
      = x (ix2 (j 1) k) := by
  have hj0 : (j 0).val < 1 := (j 0).isLt
  have hj1 : (j 1).val < 8192 := (j 1).isLt
  refine (shapeCast_apply _ _ j (ix1 (j 1)) ?_).trans ?_
  · rw [Shape.rowMajor_val_one, Shape.rowMajor_val_two]
    show (j 1).val = (j 0).val * 8192 + (j 1).val
    omega
  refine (shapeCast_apply _ _ (ix1 (j 1)) (ix2 (j 1) (0 : Fin 1)) ?_).trans ?_
  · rw [Shape.rowMajor_val_two, Shape.rowMajor_val_one]
    show (j 1).val * 1 + 0 = (j 1).val
    omega
  refine (extractStridedSlice_apply off _ hs (ix2 (j 1) (0 : Fin 1)) (ix2 (j 1) (⟨k.val, hk⟩ : Fin 3)) ?_).trans ?_
  · intro a
    match a with
    | ⟨0, _⟩ => show (j 1).val = off 0 + (j 1).val; omega
    | ⟨1, _⟩ => show k.val = off 1 + 0; omega
  refine (extractStridedSlice_apply ![0, 0] x slices_S8192x7_S8192x3_0_0 (ix2 (j 1) (⟨k.val, hk⟩ : Fin 3)) (ix2 (j 1) k) ?_)
  intro a
  match a with
  | ⟨0, _⟩ => show (j 1).val = 0 + (j 1).val; omega
  | ⟨1, _⟩ => show k.val = 0 + k.val; omega

variable (m : (ℓ : Loc nD τ sig) → Buf (Elt Ideal) ℓ)

/-- The point array as launched. -/
abbrev pts (c : Dev nD) : S8192x7.Idx → EReal := m ((c : Thread nD τ).loc main_arg0)

/-- The first column operand holds feature 0 of every point. -/
theorem col0 (c : Dev nD) : (V m c main_v3 : S8192x1.Idx → EReal) = fun j => pts m c (ix2 (j 0) 0) := by
  have e : (V m c main_v3 : S8192x1.Idx → EReal) = shapeCast S8192x1 (shapeCast S8192 (extractStridedSlice S8192x1 ![0, 0]
      (extractStridedSlice S8192x3 ![0, 0] (pts m c) slices_S8192x7_S8192x3_0_0) slices_S8192x3_S8192x1_0_0) shapeCasts_S8192x1_S8192) shapeCasts_S8192_S8192x1 := by
    dsimp only [Gen.V, Gen.hostOps0]; after_results; rfl
  rw [e]; funext j
  exact column_read (pts m c) ![0, 0] slices_S8192x3_S8192x1_0_0 0 (by decide) rfl rfl j

/-- The second column operand holds feature 1. -/
theorem col1 (c : Dev nD) : (V m c main_v6 : S8192x1.Idx → EReal) = fun j => pts m c (ix2 (j 0) 1) := by
  have e : (V m c main_v6 : S8192x1.Idx → EReal) = shapeCast S8192x1 (shapeCast S8192 (extractStridedSlice S8192x1 ![0, 1]
      (extractStridedSlice S8192x3 ![0, 0] (pts m c) slices_S8192x7_S8192x3_0_0) slices_S8192x3_S8192x1_0_1) shapeCasts_S8192x1_S8192) shapeCasts_S8192_S8192x1 := by
    dsimp only [Gen.V, Gen.hostOps0]; after_results; rfl
  rw [e]; funext j
  exact column_read (pts m c) ![0, 1] slices_S8192x3_S8192x1_0_1 1 (by decide) rfl rfl j

/-- The third column operand holds feature 2. -/
theorem col2 (c : Dev nD) : (V m c main_v9 : S8192x1.Idx → EReal) = fun j => pts m c (ix2 (j 0) 2) := by
  have e : (V m c main_v9 : S8192x1.Idx → EReal) = shapeCast S8192x1 (shapeCast S8192 (extractStridedSlice S8192x1 ![0, 2]
      (extractStridedSlice S8192x3 ![0, 0] (pts m c) slices_S8192x7_S8192x3_0_0) slices_S8192x3_S8192x1_0_2) shapeCasts_S8192x1_S8192) shapeCasts_S8192_S8192x1 := by
    dsimp only [Gen.V, Gen.hostOps0]; after_results; rfl
  rw [e]; funext j
  exact column_read (pts m c) ![0, 2] slices_S8192x3_S8192x1_0_2 2 (by decide) rfl rfl j

/-- The first row operand holds feature 0 of every point. -/
theorem row0 (c : Dev nD) : (V m c main_v12 : S1x8192.Idx → EReal) = fun j => pts m c (ix2 (j 1) 0) := by
  have e : (V m c main_v12 : S1x8192.Idx → EReal) = shapeCast S1x8192 (shapeCast S8192 (extractStridedSlice S8192x1 ![0, 0]
      (extractStridedSlice S8192x3 ![0, 0] (pts m c) slices_S8192x7_S8192x3_0_0) slices_S8192x3_S8192x1_0_0) shapeCasts_S8192x1_S8192) shapeCasts_S8192_S1x8192 := by
    dsimp only [Gen.V, Gen.hostOps0]; after_results; rfl
  rw [e]; funext j
  exact row_read (pts m c) ![0, 0] slices_S8192x3_S8192x1_0_0 0 (by decide) rfl rfl j

/-- The second row operand holds feature 1. -/
theorem row1 (c : Dev nD) : (V m c main_v15 : S1x8192.Idx → EReal) = fun j => pts m c (ix2 (j 1) 1) := by
  have e : (V m c main_v15 : S1x8192.Idx → EReal) = shapeCast S1x8192 (shapeCast S8192 (extractStridedSlice S8192x1 ![0, 1]
      (extractStridedSlice S8192x3 ![0, 0] (pts m c) slices_S8192x7_S8192x3_0_0) slices_S8192x3_S8192x1_0_1) shapeCasts_S8192x1_S8192) shapeCasts_S8192_S1x8192 := by
    dsimp only [Gen.V, Gen.hostOps0]; after_results; rfl
  rw [e]; funext j
  exact row_read (pts m c) ![0, 1] slices_S8192x3_S8192x1_0_1 1 (by decide) rfl rfl j

/-- The third row operand holds feature 2. -/
theorem row2 (c : Dev nD) : (V m c main_v18 : S1x8192.Idx → EReal) = fun j => pts m c (ix2 (j 1) 2) := by
  have e : (V m c main_v18 : S1x8192.Idx → EReal) = shapeCast S1x8192 (shapeCast S8192 (extractStridedSlice S8192x1 ![0, 2]
      (extractStridedSlice S8192x3 ![0, 0] (pts m c) slices_S8192x7_S8192x3_0_0) slices_S8192x3_S8192x1_0_2) shapeCasts_S8192x1_S8192) shapeCasts_S8192_S1x8192 := by
    dsimp only [Gen.V, Gen.hostOps0]; after_results; rfl
  rw [e]; funext j
  exact row_read (pts m c) ![0, 2] slices_S8192x3_S8192x1_0_2 2 (by decide) rfl rfl j

end Cert.KernelIdeal.Columns

end
-- ==== Proof.KernelGraph.lean ====
/-
  The kernel writes the bond graph.

  The grid has 8 × 8 points; point `(I, J)` works on a 1024 × 1024 tile of the graph. It reads rows
  `I·1024 … I·1024 + 1023` of each feature column and columns `J·1024 … J·1024 + 1023` of each feature row, so entry
  `(p, q)` of its tile compares the L1 distance of points `I·1024 + p` and `J·1024 + q` with the cutoff: the tile is the
  bond graph read through the tile's rectangle. The 64 tiles cover the whole graph (the tile holding entry `(r, c)` is
  `(r / 1024, c / 1024)`), so after the run the output array is the bond graph of the point array.
-/
import proofs.«115803_j52493090292366_1_alg».proof.Proof.Gen.KernelIdeal.Value
import proofs.«115803_j52493090292366_1_alg».proof.Proof.KernelColumns
import proofs.«115803_j52493090292366_1_alg».proof.Proof.BondGraph

set_option maxRecDepth 16384

noncomputable section

namespace Cert.KernelIdeal.Graph

open Cert.KernelIdeal Cert.KernelIdeal.Gen Cert.KernelIdeal.Value Cert.KernelIdeal.Columns Cert.BondGraph
open Idealize.ShloMosaic Idealize.ShloMosaic.TcCoe Idealize.ShloMosaic.ValueIdx Idealize.SL.Sem
open Idealize.ShloMosaic.Pipeline (Dat)

/-- One entry of a tile: if the six loaded blocks hold, where the entry reads them, the three features of points `r`
    and `c`, the entry is the bond graph's at `(r, c)`. The kernel widens the comparison's bit to 32 bits and converts it
    as a signed integer; that is the bit itself. -/
theorem tile_entry (x : S8192x7.Idx → EReal) (b0 b1 b2 : Vec Ideal S1024x1 .f32) (b3 b4 b5 : Vec Ideal S1x1024 .f32)
    (y : S1024x1024.Idx) (r c : Fin 8192)
    (h0 : b0 (ix6_0 y) = x (ix2 r 0)) (h1 : b1 (ix6_2 y) = x (ix2 r 1)) (h2 : b2 (ix6_4 y) = x (ix2 r 2))
    (h3 : b3 (ix6_1 y) = x (ix2 c 0)) (h4 : b4 (ix6_3 y) = x (ix2 c 1)) (h5 : b5 (ix6_5 y) = x (ix2 c 2)) :
    E6 b0 b3 b1 b4 b2 b5 y = bonded x (ix2 r c) := by
  unfold E6
  rw [h0, h1, h2, h3, h4, h5]
  exact congrArg Real.toEReal (toInt_setWidth_bit _)

theorem hz : (![0, 0] : Fin 2 → Nat) = fun _ => 0 := funext fun a => by fin_cases a <;> rfl

/-- One entry of what the body leaves in the output block, from the six input blocks: the body loads each block whole,
    stores the tile whole, and the stored value at `y` is `tile_entry`'s. -/
theorem out_entry (x : S8192x7.Idx → EReal) (b0 b1 b2 : Vec Ideal S1024x1 .f32) (b3 b4 b5 : Vec Ideal S1x1024 .f32)
    (y : S1024x1024.Idx) (r c : Fin 8192)
    (h0 : b0 (ix6_0 y) = x (ix2 r 0)) (h1 : b1 (ix6_2 y) = x (ix2 r 1)) (h2 : b2 (ix6_4 y) = x (ix2 r 2))
    (h3 : b3 (ix6_1 y) = x (ix2 c 0)) (h4 : b4 (ix6_3 y) = x (ix2 c 1)) (h5 : b5 (ix6_5 y) = x (ix2 c 2)) :
    out0_6 b0 b1 b2 b3 b4 b5 y = bonded x (ix2 r c) := by
  unfold out0_6
  simp only [View.ld_unit_zero (S := S1024x1) hz, View.ld_unit_zero (S := S1x1024) hz]
  rw [canon6_eq]
  exact tile_entry x b0 b1 b2 b3 b4 b5 y r c h0 h1 h2 h3 h4 h5

/-- The printed index maps, decided over the 64 grid points: a column operand's block index is the tile's row index
    (and `0` on its unit axis), a row operand's is the tile's column index, and both tile indices are below 8. -/
theorem idx_0 : ∀ t : Fin cfg0.N, win0_0.index t (0 : Fin 2) = win0_6.index t (0 : Fin 2) ∧ win0_0.index t (1 : Fin 2) = 0 :=
  (by decide +kernel : ∀ t : Fin grid0.N, win0_0.index t (0 : Fin 2) = win0_6.index t (0 : Fin 2) ∧ win0_0.index t (1 : Fin 2) = 0)
theorem idx_1 : ∀ t : Fin cfg0.N, win0_1.index t (0 : Fin 2) = win0_6.index t (0 : Fin 2) ∧ win0_1.index t (1 : Fin 2) = 0 :=
  (by decide +kernel : ∀ t : Fin grid0.N, win0_1.index t (0 : Fin 2) = win0_6.index t (0 : Fin 2) ∧ win0_1.index t (1 : Fin 2) = 0)
theorem idx_2 : ∀ t : Fin cfg0.N, win0_2.index t (0 : Fin 2) = win0_6.index t (0 : Fin 2) ∧ win0_2.index t (1 : Fin 2) = 0 :=
  (by decide +kernel : ∀ t : Fin grid0.N, win0_2.index t (0 : Fin 2) = win0_6.index t (0 : Fin 2) ∧ win0_2.index t (1 : Fin 2) = 0)
theorem idx_3 : ∀ t : Fin cfg0.N, win0_3.index t (1 : Fin 2) = win0_6.index t (1 : Fin 2) ∧ win0_3.index t (0 : Fin 2) = 0 :=
  (by decide +kernel : ∀ t : Fin grid0.N, win0_3.index t (1 : Fin 2) = win0_6.index t (1 : Fin 2) ∧ win0_3.index t (0 : Fin 2) = 0)
theorem idx_4 : ∀ t : Fin cfg0.N, win0_4.index t (1 : Fin 2) = win0_6.index t (1 : Fin 2) ∧ win0_4.index t (0 : Fin 2) = 0 :=
  (by decide +kernel : ∀ t : Fin grid0.N, win0_4.index t (1 : Fin 2) = win0_6.index t (1 : Fin 2) ∧ win0_4.index t (0 : Fin 2) = 0)
theorem idx_5 : ∀ t : Fin cfg0.N, win0_5.index t (1 : Fin 2) = win0_6.index t (1 : Fin 2) ∧ win0_5.index t (0 : Fin 2) = 0 :=
  (by decide +kernel : ∀ t : Fin grid0.N, win0_5.index t (1 : Fin 2) = win0_6.index t (1 : Fin 2) ∧ win0_5.index t (0 : Fin 2) = 0)
theorem idx_tile : ∀ t : Fin cfg0.N, win0_6.index t (0 : Fin 2) ≤ 7 ∧ win0_6.index t (1 : Fin 2) ≤ 7 :=
  (by decide +kernel : ∀ t : Fin grid0.N, win0_6.index t (0 : Fin 2) ≤ 7 ∧ win0_6.index t (1 : Fin 2) ≤ 7)

/-- Every tile of the 8 × 8 tiling is some grid point's. -/
theorem idx_onto : ∀ (q0 q1 : Fin 8), ∃ t : Fin cfg0.N, win0_6.index t = ![q0.val, q1.val] :=
  (by decide +kernel : ∀ (q0 q1 : Fin 8), ∃ t : Fin grid0.N, win0_6.index t = ![q0.val, q1.val])

variable (m : (ℓ : Loc nD τ sig) → Buf (Elt Ideal) ℓ) (ρ : Dev nD → PrngReg)

/-- What grid point `t` writes back is the bond graph of the point array, read through the point's tile. -/
theorem flushed_eq (c : Dev nD) (t : Fin cfg0.N) :
    (dats m 0 c).flushed 6 t = ((cfg0.win 6).blk t).view.read (Elt Ideal) (bonded (pts m c)) := by
  rw [Value.flushed6]
  obtain ⟨e00, e01⟩ := idx_0 t
  obtain ⟨e10, e11⟩ := idx_1 t
  obtain ⟨e20, e21⟩ := idx_2 t
  obtain ⟨e31, e30⟩ := idx_3 t
  obtain ⟨e41, e40⟩ := idx_4 t
  obtain ⟨e51, e50⟩ := idx_5 t
  obtain ⟨hI, hJ⟩ := idx_tile t
  funext y
  have hy0 : (y 0).val < 1024 := (y 0).isLt
  have hy1 : (y 1).val < 1024 := (y 1).isLt
  have hemb : ((cfg0.win 6).blk t).view.emb y
      = ix2 (⟨win0_6.index t (0 : Fin 2) * 1024 + (y 0).val, by omega⟩ : Fin 8192)
          (⟨win0_6.index t (1 : Fin 2) * 1024 + (y 1).val, by omega⟩ : Fin 8192) := by
    funext a; apply Fin.ext
    match a with
    | ⟨0, _⟩ => show win0_6.index t (0 : Fin 2) * 1024 + 1 * (y 0).val = win0_6.index t (0 : Fin 2) * 1024 + (y 0).val; omega
    | ⟨1, _⟩ => show win0_6.index t (1 : Fin 2) * 1024 + 1 * (y 1).val = win0_6.index t (1 : Fin 2) * 1024 + (y 1).val; omega
  have h0 : iblk m c 0 t (ix6_0 y) = pts m c (ix2 (⟨win0_6.index t (0 : Fin 2) * 1024 + (y 0).val, by omega⟩ : Fin 8192) 0) := by
    show V m c main_v3 (((cfg0.win 0).blk t).view.emb (ix6_0 y)) = _
    refine (congrFun (col0 m c) _).trans (congrArg (pts m c) (congrArg (fun p => ix2 p 0) (Fin.ext ?_)))
    show win0_0.index t (0 : Fin 2) * 1024 + 1 * (y 0).val = win0_6.index t (0 : Fin 2) * 1024 + (y 0).val
    omega
  have h1 : iblk m c 1 t (ix6_2 y) = pts m c (ix2 (⟨win0_6.index t (0 : Fin 2) * 1024 + (y 0).val, by omega⟩ : Fin 8192) 1) := by
    show V m c main_v6 (((cfg0.win 1).blk t).view.emb (ix6_2 y)) = _
    refine (congrFun (col1 m c) _).trans (congrArg (pts m c) (congrArg (fun p => ix2 p 1) (Fin.ext ?_)))
    show win0_1.index t (0 : Fin 2) * 1024 + 1 * (y 0).val = win0_6.index t (0 : Fin 2) * 1024 + (y 0).val
    omega
  have h2 : iblk m c 2 t (ix6_4 y) = pts m c (ix2 (⟨win0_6.index t (0 : Fin 2) * 1024 + (y 0).val, by omega⟩ : Fin 8192) 2) := by
    show V m c main_v9 (((cfg0.win 2).blk t).view.emb (ix6_4 y)) = _
    refine (congrFun (col2 m c) _).trans (congrArg (pts m c) (congrArg (fun p => ix2 p 2) (Fin.ext ?_)))
    show win0_2.index t (0 : Fin 2) * 1024 + 1 * (y 0).val = win0_6.index t (0 : Fin 2) * 1024 + (y 0).val
    omega
  have h3 : iblk m c 3 t (ix6_1 y) = pts m c (ix2 (⟨win0_6.index t (1 : Fin 2) * 1024 + (y 1).val, by omega⟩ : Fin 8192) 0) := by
    show V m c main_v12 (((cfg0.win 3).blk t).view.emb (ix6_1 y)) = _
    refine (congrFun (row0 m c) _).trans (congrArg (pts m c) (congrArg (fun p => ix2 p 0) (Fin.ext ?_)))
    show win0_3.index t (1 : Fin 2) * 1024 + 1 * (y 1).val = win0_6.index t (1 : Fin 2) * 1024 + (y 1).val
    omega
  have h4 : iblk m c 4 t (ix6_3 y) = pts m c (ix2 (⟨win0_6.index t (1 : Fin 2) * 1024 + (y 1).val, by omega⟩ : Fin 8192) 1) := by
    show V m c main_v15 (((cfg0.win 4).blk t).view.emb (ix6_3 y)) = _
    refine (congrFun (row1 m c) _).trans (congrArg (pts m c) (congrArg (fun p => ix2 p 1) (Fin.ext ?_)))
    show win0_4.index t (1 : Fin 2) * 1024 + 1 * (y 1).val = win0_6.index t (1 : Fin 2) * 1024 + (y 1).val
    omega
  have h5 : iblk m c 5 t (ix6_5 y) = pts m c (ix2 (⟨win0_6.index t (1 : Fin 2) * 1024 + (y 1).val, by omega⟩ : Fin 8192) 2) := by
    show V m c main_v18 (((cfg0.win 5).blk t).view.emb (ix6_5 y)) = _
    refine (congrFun (row2 m c) _).trans (congrArg (pts m c) (congrArg (fun p => ix2 p 2) (Fin.ext ?_)))
    show win0_5.index t (1 : Fin 2) * 1024 + 1 * (y 1).val = win0_6.index t (1 : Fin 2) * 1024 + (y 1).val
    omega
  rw [View.read_apply, hemb]
  exact out_entry (pts m c) (iblk m c 0 t) (iblk m c 1 t) (iblk m c 2 t) (iblk m c 3 t) (iblk m c 4 t) (iblk m c 5 t) y
    (⟨win0_6.index t (0 : Fin 2) * 1024 + (y 0).val, by omega⟩ : Fin 8192) (⟨win0_6.index t (1 : Fin 2) * 1024 + (y 1).val, by omega⟩ : Fin 8192)
    h0 h1 h2 h3 h4 h5

/-- An entry of the graph is in point `t`'s tile iff each coordinate is in the tile's range on its axis. -/
theorem mem_tile (t : Fin cfg0.N) (i : S8192x8192.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v19).slice (win0_6.rect t)).set ↔ _
  rw [View.set_slice_whole, Rect.mem_set_unit]
  exact Iff.rfl

/-- Every entry of the graph is in some point's tile: the one at row index `r / 1024` and column index `c / 1024`. -/
theorem tiles_cover (i : S8192x8192.Idx) :
    ∃ t : Fin cfg0.N, (cfg0.win 6).flush t = true ∧ i ∈ ((cfg0.win 6).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_6.index t (0 : Fin 2) = (i 0).val / 1024 := congrFun ht 0
  have q1 : win0_6.index t (1 : Fin 2) = (i 1).val / 1024 := congrFun ht 1
  refine ⟨t, flush0_6 t, ?_⟩
  rw [mem_tile]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 1024 ≤ (i 1).val ∧ (i 1).val < win0_6.index t (1 : Fin 2) * 1024 + 1024
    omega

/-- After the run the output array is the bond graph of the point array. -/
theorem final (c : Dev nD) : (dats m 0 c).arrAt 6 cfg0.N = bonded (pts m c) :=
  (dats m 0 c).arrAt_eq_of_cover 6 (bonded (pts m c)) (fun t _ => flushed_eq m c t) tiles_cover

/-- The kernel's run: every weakly fair execution terminates with the output array at the bond graph of the point
    array as launched, and the point array unchanged. -/
theorem run : θ_run defs (onTc (τ := τ) (main (F := Ideal))) ⟨m, fun _ => 0, ρ⟩ fun r => ∀ c : Dev nD,
      r.2.mem ((c : Thread nD τ).loc main_v19) = bonded (pts m c)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Graph

end
-- ==== Proof.RefGraph.lean ====
/-
  The reference computes the bond graph.

  The reference broadcasts the three position features of every point against every other point, takes the absolute
  differences, sums them over the feature axis starting from zero, compares with the cutoff and converts the bit to a
  float. Read at a pair `(r, c)`, the summand for feature `k` is `|x r k - x c k|`, so the sum from zero is the L1
  distance added left to right, and the converted bit is the graph's entry.
-/
import proofs.«115803_j52493090292366_1_alg».proof.Proof.Gen.ReferenceIdeal.Read
import proofs.«115803_j52493090292366_1_alg».proof.Proof.BondGraph

noncomputable section

open scoped BigOperators

namespace Cert.ReferenceIdeal.RefGraph

open Cert.ReferenceIdeal Cert.ReferenceIdeal.Gen Cert.ReferenceIdeal.Read Cert.BondGraph
open Idealize.ShloMosaic Idealize.ShloMosaic.ValueIdx

/-- The summand of the feature sum at the pair `i` and feature `k` is the gap of the two points along that feature. -/
theorem summand_eq (x : S8192x7.Idx → EReal) (i : S8192x8192.Idx) (k : Fin 3) (k7 : Fin 7) (hk : k7.val = k.val) :
    val_main_v6 (F := Ideal) x (idx_main_v7 i k) = gap x (i 0) (i 1) k7 := by
  rw [val_main_v6_apply, val_main_v5_apply, val_main_v3_apply, val_main_v1_apply, val_main_v0_apply,
    val_main_v4_apply, val_main_v2_apply, val_main_v0_apply]
  have e1 : idx_main_v0 (idx_main_v1 (idx_main_v3 (idx_main_v7 i k))) = ix2 (i 0) k7 :=
    funext fun a => Fin.ext (by
      match a with
      | ⟨0, _⟩ => rfl
      | ⟨1, _⟩ => show k.val = k7.val; exact hk.symm)
  have e2 : idx_main_v0 (idx_main_v2 (idx_main_v4 (idx_main_v7 i k))) = ix2 (i 1) k7 :=
    funext fun a => Fin.ext (by
      match a with
      | ⟨0, _⟩ => rfl
      | ⟨1, _⟩ => show k.val = k7.val; exact hk.symm)
  rw [e1, e2]
  rfl

/-- The reference's result, index by index, is the bond graph of the point array. -/
theorem ref_is_bonded (x : S8192x7.Idx → EReal) : val_main_v10 (F := Ideal) x = bonded x := by
  funext i
  rw [val_main_v10_apply, val_main_v9_apply, val_main_v7_apply, val_main_v8_apply, val_main_cst_apply, val_main_cst_0_apply]
  rw [Ideal.ofBits_def, Ideal.ofBits_zero_f32, zero_add_sum_three,
    summand_eq x i 0 0 rfl, summand_eq x i 1 1 rfl, summand_eq x i 2 2 rfl]
  rfl

end Cert.ReferenceIdeal.RefGraph

end
-- ==== Proof.lean ====
/-
  The certificate of the bond-graph kernel against its jnp reference.

  Both programs compute, for every ordered pair of the 8192 points, whether the L1 distance of their positions (the
  first three of seven features) is at most the cutoff, as a float `1` or `0`. The kernel tiles the 8192 × 8192 graph
  into 64 tiles and, per tile, subtracts a column block from a row block feature by feature, adds the three absolute
  differences left to right, compares and converts. The reference broadcasts all pairs, sums the absolute differences
  over the feature axis starting from zero, compares and converts. At the ideal instance both are the one function
  `Cert.BondGraph.bonded` of the point array: the kernel's array by `Cert.KernelIdeal.Graph.run` (tile by tile, the tiles
  covering the graph), the reference's by `Cert.ReferenceIdeal.RefGraph.ref_is_bonded` (index by index). The only algebra
  is that zero is the unit of addition on the extended reals, so the precondition is never opened. The ideal pass
  rewrote nothing, so the kernel's idealization is its own text read at the ideal instance.
-/
import proofs.«115803_j52493090292366_1_alg».proof.Defs
import proofs.«115803_j52493090292366_1_alg».proof.Proof.Gen.Kernel
import proofs.«115803_j52493090292366_1_alg».proof.Proof.Gen.Kernel.Skeleton
import proofs.«115803_j52493090292366_1_alg».proof.Proof.Gen.Kernel.Launch
import proofs.«115803_j52493090292366_1_alg».proof.Proof.Gen.Kernel.Points
import proofs.«115803_j52493090292366_1_alg».proof.Proof.Gen.Kernel.Frame
import proofs.«115803_j52493090292366_1_alg».proof.Proof.Gen.KernelIdeal
import proofs.«115803_j52493090292366_1_alg».proof.Proof.Gen.KernelIdeal.Skeleton
import proofs.«115803_j52493090292366_1_alg».proof.Proof.Gen.KernelIdeal.Launch
import proofs.«115803_j52493090292366_1_alg».proof.Proof.Gen.KernelIdeal.Points
import proofs.«115803_j52493090292366_1_alg».proof.Proof.Gen.KernelIdeal.Frame
import proofs.«115803_j52493090292366_1_alg».proof.Proof.Gen.ReferenceIdeal
import proofs.«115803_j52493090292366_1_alg».proof.Proof.Gen.Pre_finite_inputs
import proofs.«115803_j52493090292366_1_alg».proof.Proof.Gen.KernelIdeal.Value
import proofs.«115803_j52493090292366_1_alg».proof.Proof.Gen.ReferenceIdeal.Run
import proofs.«115803_j52493090292366_1_alg».proof.Proof.Gen.ReferenceIdeal.Read
import proofs.«115803_j52493090292366_1_alg».proof.Proof.BondGraph
import proofs.«115803_j52493090292366_1_alg».proof.Proof.KernelColumns
import proofs.«115803_j52493090292366_1_alg».proof.Proof.KernelGraph
import proofs.«115803_j52493090292366_1_alg».proof.Proof.RefGraph
import Idealize.ShloMosaic.Adequacy
import Idealize.ShloMosaic.Init

noncomputable section

namespace Cert.Proof

open Idealize.ShloMosaic Idealize.SL.Sem

/-- The word-level kernel runs and leaves the point array unchanged. -/
theorem frame_kernel : Cert.frame_Kernel := fun m ρ _ => Cert.Kernel.Gen.frame m ρ

/-- The idealized kernel runs and leaves the point array unchanged. -/
theorem frame_kernel_ideal : Cert.frame_KernelIdeal := fun m ρ _ => Cert.KernelIdeal.Gen.frame m ρ

/-- The reference runs and leaves the point array unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the point array both programs end with the bond graph of that array. -/
theorem algebraic : Cert.algebraic_KernelIdeal_ReferenceIdeal := by
  intro m ρ m' ρ' _ hagree
  refine ⟨fun c => Cert.BondGraph.bonded (Cert.KernelIdeal.Columns.pts m c), Cert.KernelIdeal.Graph.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefGraph.ref_is_bonded, (hagree c)]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
